-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S3072x3072 : Shape := ⟨2, ![3072, 3072]⟩
abbrev S3072 : Shape := ⟨1, ![3072]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S16384x3072 .f32) (main_arg1 : FVec F S3072x3072 .f32) (main_arg2 : FVec F S3072 .f32) (main_arg3 : IVec S3072x3072 32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S16384x3072 : Shape := ⟨2, ![16384, 3072]⟩
abbrev S3072x3072 : Shape := ⟨2, ![3072, 3072]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .i32⟩
  | .hbm, ⟨4, _⟩ => ⟨S3072x3072, .i32⟩
  | .hbm, ⟨5, _⟩ => ⟨S3072x3072, .f32⟩
  | .hbm, ⟨6, _⟩ => ⟨S3072x3072, .f32⟩
  | .hbm, ⟨7, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 3, 3], ![false, false, false]⟩

def k0_cond2 (i : grid0.Coords) : BitVec 1 :=
  let arg2 : BitVec 32 := BitVec.ofNat 32 (i 2).val
  let c2_i32 : BitVec 32 := 2#32
  let v14 : BitVec 1 := Scalar.cmpi .eq arg2 c2_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S3072x3072_S3072x3072_1_0 : S3072x3072.Transposes [1, 0] S3072x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x3072.size a
  hwx0_0 : ∀ i : grid0.Coords, EltTy.bits .f32 = 32 ∨ (Rect.block (s := S16384x3072) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x3072.size a
  hwx0_1 : ∀ i : grid0.Coords, EltTy.bits .f32 = 32 ∨ (Rect.block (s := S3072x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S3072.size a
  hwx0_2 : ∀ i : grid0.Coords, EltTy.bits .f32 = 32 ∨ (Rect.block (s := S3072) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x3072.size a
  hwx0_3 : ∀ i : grid0.Coords, EltTy.bits .f32 = 32 ∨ (Rect.block (s := S16384x3072) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x3072 : Shape := ⟨2, ![16384, 3072]⟩
abbrev S3072x3072 : Shape := ⟨2, ![3072, 3072]⟩
abbrev S3072 : Shape := ⟨1, ![3072]⟩
abbrev S1x3072 : Shape := ⟨2, ![1, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .i32⟩
  | .hbm, ⟨4, _⟩ => ⟨S3072x3072, .i32⟩
  | .hbm, ⟨5, _⟩ => ⟨S3072x3072, .f32⟩
  | .hbm, ⟨6, _⟩ => ⟨S3072x3072, .f32⟩
  | .hbm, ⟨7, _⟩ => ⟨S16384x3072, .f32⟩
  | .hbm, ⟨8, _⟩ => ⟨S1x3072, .f32⟩
  | .hbm, ⟨9, _⟩ => ⟨S16384x3072, .f32⟩
  | .hbm, ⟨10, _⟩ => ⟨S16384x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S3072x3072_S3072x3072_1_0 : S3072x3072.Transposes [1, 0] S3072x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  dot_S16384x3072_S3072x3072_S16384x3072_1_0_0_1_n_n_wf : DotDims.WF S16384x3072 S3072x3072 S16384x3072 [1] [0] [0] [1] [] []

variable [Facts₀]

def dot_S16384x3072_S3072x3072_S16384x3072_1_0_0_1_n_n : DotDims S16384x3072 S3072x3072 S16384x3072 where
  lhsContracting := [1]
  rhsContracting := [0]
  lhsNonContracting := [0]
  rhsNonContracting := [1]
  lhsBatch := []
  rhsBatch := []
  wf := dot_S16384x3072_S3072x3072_S16384x3072_1_0_0_1_n_n_wf

class Facts : Prop extends Facts₀ where

variable [Facts]
-- ==== Proof.Pieces.lean ====
/-
  What each control case of the kernel body leaves behind, as a term over the body's three stored
  values (zero tile, accumulation step, bias epilogue).

  A grid point (i, j, k) runs one of three cases by its position k in the contraction:
    * first run  (k = 0): the accumulator is reset to the zero tile and then stepped once, so it
      ends at  step a w zero;
    * middle run (k = 1): the accumulator, found at acc, ends at  step a w acc;
    * last run   (k = 2): the accumulator is stepped once more and the output tile receives
      bias b (step a w acc).
  Here a, w, b are the tiles of the left operand, the right operand and the bias row the point
  reads, and acc what the point before left in the accumulator.
-/
import proofs.«111268_j25434796327643_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a <;> rfl

/-- First run of a contraction: the accumulator ends at one step from the zero tile (the step
    reads back the zero tile the reset has just stored). -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .f32) (x2 : Vec F S1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- Middle run: the accumulator ends at one step from what the point before left in it. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .f32) (x2 : Vec F S1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread,
    View.ld_unit_zero (S := S1024x1024) origin2]

/-- Last run: the output tile receives the bias epilogue of one more step of the accumulator
    (the epilogue reads back the accumulator the step has just stored). -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .f32) (x2 : Vec F S1024 .f32) (xs0 : Vec F S1024x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg5.read_unread, harg7.read_unread,
    View.ld_unit_zero (S := S1024x1024) origin2, View.ld_unit_zero (S := S1024) origin1,
    View.readCov_unit_zero (S := S1024x1024) _ origin2]

end Cert.KernelIdeal.Cases

end
-- ==== Proof.Tiles.lean ====
/-
  What a grid point reads: the tiles of the three operands at point t of the 16 x 3 x 3 grid.

  The grid runs over (row block, column block, contraction run), the run fastest, so point t is
  row block t / 9, column block (t / 3) mod 3 and run t mod 3.  At that point the body is handed
    * the left operand's tile   inputs[1024 (t/9) + p, 1024 (t mod 3) + k],
    * the weights' tile         W[1024 (t mod 3) + k, 1024 ((t/3) mod 3) + q],
    * the bias row's piece      b[1024 ((t/3) mod 3) + q],
  and its output tile covers rows 1024 (t/9) + p and columns 1024 ((t/3) mod 3) + q.
  The weights the region finds are those the host computed just before it: w times the transposed
  mask converted to floats, entry by entry.
-/
import proofs.«111268_j25434796327643_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The block index of each window at point t, decided over the grid's 144 points. -/
theorem block_indices : ∀ t : Fin cfg0.N,
    win0_0.index t (0 : Fin 2) = t.val / 9 ∧ win0_0.index t (1 : Fin 2) = t.val % 3
    ∧ win0_1.index t (0 : Fin 2) = t.val % 3 ∧ win0_1.index t (1 : Fin 2) = t.val / 3 % 3
    ∧ win0_2.index t (0 : Fin 1) = t.val / 3 % 3
    ∧ win0_3.index t (0 : Fin 2) = t.val / 9 ∧ win0_3.index t (1 : Fin 2) = t.val / 3 % 3 :=
  (by decide +kernel : ∀ t : Fin grid0.N, _)

/-- The weights the region finds are the host's masked weights: w times the float of the transposed mask. -/
theorem weights_eq (c : Dev nD) :
    V m c main_v2 = mulf (m ((c : Thread nD τ).loc main_arg1))
      (sitofp .f32 (transpose S3072x3072 [1, 0] (m ((c : Thread nD τ).loc main_arg3)) transposes_S3072x3072_S3072x3072_1_0)) := by
  dsimp only [V, hostOps0]
  after_results

/-- Entry (p, k) of the left operand's tile at point t. -/
theorem lhs_tile (c : Dev nD) (t : Fin cfg0.N) (p k : Fin 1024) (r : Fin 16384) (kk : Fin 3072)
    (hr : r.val = t.val / 9 * 1024 + p.val) (hk : kk.val = t.val % 3 * 1024 + k.val) :
    (iblk m c 0 t : Vec F S1024x1024 .f32) (ix2 p k) = m ((c : Thread nD τ).loc main_arg0) (ix2 r kk) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = kk.val; rw [e1, hk]; omega

/-- Entry (k, q) of the weights' tile at point t. -/
theorem rhs_tile (c : Dev nD) (t : Fin cfg0.N) (k q : Fin 1024) (kk n : Fin 3072)
    (hk : kk.val = t.val % 3 * 1024 + k.val) (hn : n.val = t.val / 3 % 3 * 1024 + q.val) :
    (iblk m c 1 t : Vec F S1024x1024 .f32) (ix2 k q) = V m c main_v2 (ix2 kk n) := by
  obtain ⟨-, -, e2, e3, -⟩ := block_indices t
  unfold iblk
  rw [View.read_apply]
  show V m c main_v2 _ = _
  refine congrArg _ (funext fun a => Fin.ext ?_)
  match a with
  | ⟨0, _⟩ => show win0_1.index t (0 : Fin 2) * 1024 + 1 * k.val = kk.val; rw [e2, hk]; omega
  | ⟨1, _⟩ => show win0_1.index t (1 : Fin 2) * 1024 + 1 * q.val = n.val; rw [e3, hn]; omega

/-- Entry q of the bias row's piece at point t. -/
theorem bias_tile (c : Dev nD) (t : Fin cfg0.N) (q : Fin 1024) (n : Fin 3072)
    (hn : n.val = t.val / 3 % 3 * 1024 + q.val) :
    (iblk m c 2 t : Vec F S1024 .f32) (ix1 q) = m ((c : Thread nD τ).loc main_arg2) (ix1 n) := by
  obtain ⟨-, -, -, -, e4, -⟩ := block_indices t
  unfold iblk
  rw [View.read_apply]
  show V m c main_arg2 _ = _
  rw [V_main_arg2]
  refine congrArg _ (funext fun a => Fin.ext ?_)
  match a with
  | ⟨0, _⟩ => show win0_2.index t (0 : Fin 1) * 1024 + 1 * q.val = n.val; rw [e4, hn]; omega

end Cert.KernelIdeal.Tiles

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payloads.lean ====
/-
  The three values the kernel body stores, read at an index of a 1024 x 1024 tile, at the ideal
  instance (floats are the extended reals, a change of float format is the identity).

  The body keeps a tile-sized accumulator.  It stores into it
    * the zero tile                                (the reset, at the first run of the contraction),
    * acc + a . w, the product of a 1024 x 1024 tile of the left operand by a 1024 x 1024 tile of
      the right operand, both rounded to bf16 first (no rounding at the ideal instance), the
      matrix unit accumulating into zero,
  and writes out, at the last run, acc + bias with the bias row repeated down the tile.
  Entry (p, q) of each is
      0,      acc[p, q] + ∑ k < 1024, a[p, k] * w[k, q],      acc[p, q] + bias[q].
-/
import proofs.«111268_j25434796327643_1_alg».proof.Proof.Gen.KernelIdeal.Skeleton
import proofs.«111268_j25434796327643_1_alg».proof.Proof.LibDot2
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The reset tile is zero at every entry. -/
theorem reset_apply (p q : Fin 1024) : k0_pay1 (F := Ideal) (ix2 p q) = 0 := by
  unfold k0_pay1
  simp only [shapeCast_self]
  exact Ideal.ofBits_zero_f32

/-- One step of the accumulation at entry (p, q): the accumulator's entry plus row p of the left
    tile against column q of the right tile. -/
theorem step_apply (a w acc : Vec Ideal S1024x1024 .f32) (p q : Fin 1024) :
    k0_pay2 (F := Ideal) a w acc (ix2 p q)
      = acc (ix2 p q) + ∑ k : Fin 1024, a (ix2 p k) * w (ix2 k q) := by
  unfold k0_pay2
  simp only [shapeCast_self]
  refine congrArg (acc (ix2 p q) + ·) ?_
  exact Dot2.matmul_zero_mm_apply (M := 1024) (K := 1024) (N := 1024)
    dot_S1024x1024_S1024x1024_S1024x1024_1_0_0_1_n_n_wf none
    (truncf .bf16 a bitsLt_bf16_f32) (truncf .bf16 w bitsLt_bf16_f32) p q

/-- The epilogue at entry (p, q): the accumulator's entry plus entry q of the bias row. -/
theorem bias_apply (bv : Vec Ideal S1024 .f32) (acc : Vec Ideal S1024x1024 .f32) (p q : Fin 1024) :
    k0_pay3 (F := Ideal) bv acc (ix2 p q) = acc (ix2 p q) + bv (ix1 q) := by
  unfold k0_pay3
  refine congrArg (acc (ix2 p q) + ·) ?_
  rw [broadcastTo_apply _ broadcasts_S1x1024_S1024x1024 (ix2 p q) (ix2 (0 : Fin 1) q) (fun a => by
      match a with
      | ⟨0, _⟩ => exact (if_pos rfl).symm
      | ⟨1, _⟩ => show q.val = if (1024 : Nat) = 1 then 0 else q.val; rw [if_neg (by decide)]),
    shapeCast_apply _ shapeCasts_S1024_S1x1024 (ix2 (0 : Fin 1) q) (ix1 q) (by
      rw [Shape.rowMajor_val_one, Shape.rowMajor_val_two]
      show q.val = 0 * 1024 + q.val
      omega)]

end Cert.KernelIdeal.Tile

end
-- ==== Proof.BlockSum.lean ====
/-
  A sum over the 3072 contraction indices of a matrix product, cut into three consecutive runs of
  1024 indices and accumulated run by run starting from zero.

  Addition of extended reals is commutative and associative (also at the infinities: the sum of
  +inf and -inf is -inf however the terms are grouped), and zero is neutral, so
      ∑ k < 3072, f k  =  ((0 + ∑ j < 1024, f j) + ∑ j < 1024, f (1024 + j)) + ∑ j < 1024, f (2048 + j)
  with no finiteness assumption on f.  The index 1024 * b + j is `kidx b j`.
-/
import Mathlib.Data.EReal.Basic
import Mathlib.Data.Fintype.BigOperators
import Mathlib.Algebra.BigOperators.Fin
import Mathlib.Logic.Equiv.Fin.Basic

noncomputable section

open scoped BigOperators

namespace Cert.BlockSum

/-- Index `1024 * b + j` of the contracted axis: entry `j` of run `b`. -/
def kidx (b : Fin 3) (j : Fin 1024) : Fin 3072 :=
  ⟨b.val * 1024 + j.val, by have := b.isLt; have := j.isLt; omega⟩

@[simp] theorem kidx_val (b : Fin 3) (j : Fin 1024) : (kidx b j).val = b.val * 1024 + j.val := rfl

/-- The pairs (run, entry) enumerate the contracted axis: a sum over it is the sum over the runs
    of the sums over each run's entries. -/
theorem sum_runs {α : Type*} [AddCommMonoid α] (f : Fin 3072 → α) :
    ∑ k : Fin 3072, f k = ∑ b : Fin 3, ∑ j : Fin 1024, f (kidx b j) := by
  rw [← Fintype.sum_prod_type' (fun b j => f (kidx b j))]
  refine (Fintype.sum_equiv (finProdFinEquiv (m := 3) (n := 1024)) (fun p => f (kidx p.1 p.2)) f ?_).symm
  intro p
  refine congrArg f (Fin.ext ?_)
  show p.1.val * 1024 + p.2.val = p.2.val + 1024 * p.1.val
  omega

/-- The accumulation as the kernel performs it — start from zero, add the three runs' partial sums
    in order — is the whole sum. -/
theorem accumulate_three (f : Fin 3072 → EReal) :
    ((0 + ∑ j : Fin 1024, f (kidx 0 j)) + ∑ j : Fin 1024, f (kidx 1 j)) + ∑ j : Fin 1024, f (kidx 2 j)
      = ∑ k : Fin 3072, f k := by
  rw [sum_runs, Fin.sum_univ_three, zero_add]

end Cert.BlockSum

end
-- ==== Proof.Spec.lean ====
/-
  The result of the masked matrix product as ONE function of the argument arrays, at the ideal
  instance: for a left operand A of 16384 x 3072, weights W of 3072 x 3072 and a bias row b of
  3072 entries,
      out[r, n] = (∑ k < 3072, A[r, k] * W[k, n]) + b[n]
  in the extended reals.  A kernel that walks the contraction in three runs of 1024 and adds the
  runs' partial sums to an accumulator started at zero, adding the bias after the last run,
  computes the same entry: addition of extended reals is commutative and associative and zero is
  neutral, so the grouping into runs does not matter (no finiteness of the entries is used).
-/
import proofs.«111268_j25434796327643_1_alg».proof.Proof.BlockSum
import Idealize.ShloMosaic.Lib.ValueIdx

noncomputable section

open scoped BigOperators

namespace Cert.MaskedGemm

open Idealize.ShloMosaic Idealize.ShloMosaic.ValueIdx Cert.BlockSum

/-- Entry (r, n) of the product plus the bias row: the whole contraction as one sum. -/
def result (A : (⟨2, ![16384, 3072]⟩ : Shape).Idx → EReal) (W : (⟨2, ![3072, 3072]⟩ : Shape).Idx → EReal)
    (b : (⟨1, ![3072]⟩ : Shape).Idx → EReal) : (⟨2, ![16384, 3072]⟩ : Shape).Idx → EReal :=
  fun i => (∑ k : Fin 3072, A (ix2 (i 0) k) * W (ix2 k (i 1))) + b (ix1 (i 1))

/-- The run-by-run accumulation of entry (r, n) — zero, plus the partial sums over the contraction
    indices 0..1023, 1024..2047, 2048..3071 in that order, plus the bias — is the result's entry. -/
theorem runs_eq_result (A : (⟨2, ![16384, 3072]⟩ : Shape).Idx → EReal) (W : (⟨2, ![3072, 3072]⟩ : Shape).Idx → EReal)
    (b : (⟨1, ![3072]⟩ : Shape).Idx → EReal) (r : Fin 16384) (n : Fin 3072) :
    (((0 + ∑ k : Fin 1024, A (ix2 r (kidx 0 k)) * W (ix2 (kidx 0 k) n))
        + ∑ k : Fin 1024, A (ix2 r (kidx 1 k)) * W (ix2 (kidx 1 k) n))
        + ∑ k : Fin 1024, A (ix2 r (kidx 2 k)) * W (ix2 (kidx 2 k) n)) + b (ix1 n)
      = result A W b (ix2 r n) := by
  rw [accumulate_three (fun k => A (ix2 r k) * W (ix2 k n))]
  rfl

end Cert.MaskedGemm

end
-- ==== Proof.TileEntry.lean ====
/-
  One entry of an output tile, from the tiles the three runs of its contraction read.

  The tile written at the last run of a contraction is
      bias b (step a2 w2 (step a1 w1 (step a0 w0 zero)))
  over the left-operand tiles a0, a1, a2 and weight tiles w0, w1, w2 of runs 0, 1, 2 and the bias
  piece b.  When those tiles are the pieces of whole arrays A, W, bias that the runs address —
  run s reads columns 1024 s + k of row r of A and rows 1024 s + k of column n of W — entry (p, q)
  of the tile is entry (r, n) of  A . W + bias:  the three partial sums added to zero in order are
  the whole contraction.
-/
import proofs.«111268_j25434796327643_1_alg».proof.Proof.Payloads
import proofs.«111268_j25434796327643_1_alg».proof.Proof.Spec

noncomputable section

open scoped BigOperators

namespace Cert.KernelIdeal.Tile

open Cert.KernelIdeal Cert.KernelIdeal.Gen Idealize.ShloMosaic Idealize.ShloMosaic.ValueIdx Cert.BlockSum

theorem entry_of_tiles (a0 w0 a1 w1 a2 w2 : Vec Ideal S1024x1024 .f32) (bt : Vec Ideal S1024 .f32)
    (A : (⟨2, ![16384, 3072]⟩ : Shape).Idx → EReal) (W : (⟨2, ![3072, 3072]⟩ : Shape).Idx → EReal)
    (b : (⟨1, ![3072]⟩ : Shape).Idx → EReal) (p q : Fin 1024) (r : Fin 16384) (n : Fin 3072)
    (ha0 : ∀ k, a0 (ix2 p k) = A (ix2 r (kidx 0 k))) (hw0 : ∀ k, w0 (ix2 k q) = W (ix2 (kidx 0 k) n))
    (ha1 : ∀ k, a1 (ix2 p k) = A (ix2 r (kidx 1 k))) (hw1 : ∀ k, w1 (ix2 k q) = W (ix2 (kidx 1 k) n))
    (ha2 : ∀ k, a2 (ix2 p k) = A (ix2 r (kidx 2 k))) (hw2 : ∀ k, w2 (ix2 k q) = W (ix2 (kidx 2 k) n))
    (hb : bt (ix1 q) = b (ix1 n)) :
    k0_pay3 (F := Ideal) bt (k0_pay2 a2 w2 (k0_pay2 a1 w1 (k0_pay2 a0 w0 (k0_pay1 (F := Ideal))))) (ix2 p q)
      = Cert.MaskedGemm.result A W b (ix2 r n) := by
  rw [bias_apply, step_apply, step_apply, step_apply, reset_apply, ← Cert.MaskedGemm.runs_eq_result]
  simp only [ha0, hw0, ha1, hw1, ha2, hw2, hb]

end Cert.KernelIdeal.Tile

end
-- ==== Proof.KernelValue.lean ====
/-
  The idealized kernel's result array: after the run, every entry (r, n) of the output holds
      (∑ k < 3072, inputs[r, k] * W[k, n]) + b[n]
  with W the masked weights the host computed before the region.

  The output is written tile by tile.  The three grid points of one output tile run one after the
  other (the contraction run is the fastest grid axis) and share a tile-sized accumulator: the
  first resets it and adds its partial product, the second adds its own, the third adds its own
  and writes accumulator plus bias to the output tile, which is written back to the array at that
  point only.  So what the third point writes back is determined by the tiles the three points
  read, and its entries are the result's (the tile-entry computation); the 16 x 3 output tiles
  cover the array, so the array ends at the result.
-/
import proofs.«111268_j25434796327643_1_alg».proof.Proof.Gen.KernelIdeal.Value
import proofs.«111268_j25434796327643_1_alg».proof.Proof.Pieces
import proofs.«111268_j25434796327643_1_alg».proof.Proof.Tiles
import proofs.«111268_j25434796327643_1_alg».proof.Proof.TileEntry

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.BlockSum

/-! ## The accumulator over the three runs of one contraction (any float instance) -/

section Runs

variable {F : FTy → Type} [FloatOps F]
variable (m : (ℓ : Loc nD τ sig) → Buf (Elt F) ℓ)

/-- After the first run of a contraction the accumulator is one step from the zero tile. -/
theorem acc_run0 (c : Dev nD) (s : ℕ) (hs : s < cfg0.N) (h : s % 3 = 0) :
    (outsAt0 m c s hs).2 = k0_pay2 (iblk m c 0 ⟨s, hs⟩) (iblk m c 1 ⟨s, hs⟩) (k0_pay1 (F := F)) := by
  have h1 : ¬ s % 3 = 2 := by omega
  show (outsAt0 m c (⟨s, hs⟩ : Fin cfg0.N).val (⟨s, hs⟩ : Fin cfg0.N).isLt).2 = _
  rw [outsAt0_A m c ⟨s, hs⟩ h h1]
  dsimp only
  exact Cases.acc_first (F := F) c (grid0.coords ⟨s, hs⟩) (ms0_0 ⟨s, hs⟩) (hs0_0 ⟨s, hs⟩) (ms0_1 ⟨s, hs⟩) (hs0_1 ⟨s, hs⟩) (ms0_2 ⟨s, hs⟩) (hs0_2 ⟨s, hs⟩) (ms0_3 ⟨s, hs⟩) (hs0_3 ⟨s, hs⟩) scM0_0 (Memref.isWhole_whole _)
    ((hcond0_0 ⟨s, hs⟩).mpr h) (fun h' => h1 ((hcond0_1 ⟨s, hs⟩).mp h'))
    (iblk m c 0 ⟨s, hs⟩) (iblk m c 1 ⟨s, hs⟩) (iblk m c 2 ⟨s, hs⟩)

/-- After the middle run it is one step from what the first run left. -/
theorem acc_run1 (c : Dev nD) (s : ℕ) (hs : s < cfg0.N) (h : s % 3 = 1) :
    (outsAt0 m c s hs).2 = k0_pay2 (iblk m c 0 ⟨s, hs⟩) (iblk m c 1 ⟨s, hs⟩)
      (outsAt0 m c (s - 1) (Nat.lt_of_le_of_lt (Nat.sub_le _ _) hs)).2 := by
  have h0 : ¬ s % 3 = 0 := by omega
  have h1 : ¬ s % 3 = 2 := by omega
  show (outsAt0 m c (⟨s, hs⟩ : Fin cfg0.N).val (⟨s, hs⟩ : Fin cfg0.N).isLt).2 = _
  rw [outsAt0_B m c ⟨s, hs⟩ h0 h1]
  dsimp only
  exact Cases.acc_middle (F := F) c (grid0.coords ⟨s, hs⟩) (ms0_0 ⟨s, hs⟩) (hs0_0 ⟨s, hs⟩) (ms0_1 ⟨s, hs⟩) (hs0_1 ⟨s, hs⟩) (ms0_2 ⟨s, hs⟩) (hs0_2 ⟨s, hs⟩) (ms0_3 ⟨s, hs⟩) (hs0_3 ⟨s, hs⟩) scM0_0 (Memref.isWhole_whole _)
    (fun h' => h0 ((hcond0_0 ⟨s, hs⟩).mp h')) (fun h' => h1 ((hcond0_1 ⟨s, hs⟩).mp h'))
    (iblk m c 0 ⟨s, hs⟩) (iblk m c 1 ⟨s, hs⟩) (iblk m c 2 ⟨s, hs⟩)
    (outsAt0 m c (s - 1) (Nat.lt_of_le_of_lt (Nat.sub_le _ _) hs)).2

/-- At the last run the output tile receives the bias epilogue of one more step. -/
theorem out_run2 (c : Dev nD) (s : ℕ) (hs : s < cfg0.N) (h : s % 3 = 2) :
    (outsAt0 m c s hs).1 = k0_pay3 (iblk m c 2 ⟨s, hs⟩) (k0_pay2 (iblk m c 0 ⟨s, hs⟩) (iblk m c 1 ⟨s, hs⟩)
      (outsAt0 m c (s - 1) (Nat.lt_of_le_of_lt (Nat.sub_le _ _) hs)).2) := by
  have h0 : ¬ s % 3 = 0 := by omega
  show (outsAt0 m c (⟨s, hs⟩ : Fin cfg0.N).val (⟨s, hs⟩ : Fin cfg0.N).isLt).1 = _
  rw [outsAt0_C m c ⟨s, hs⟩ h0 h]
  dsimp only
  exact Cases.out_last (F := F) c (grid0.coords ⟨s, hs⟩) (ms0_0 ⟨s, hs⟩) (hs0_0 ⟨s, hs⟩) (ms0_1 ⟨s, hs⟩) (hs0_1 ⟨s, hs⟩) (ms0_2 ⟨s, hs⟩) (hs0_2 ⟨s, hs⟩) (ms0_3 ⟨s, hs⟩) (hs0_3 ⟨s, hs⟩) scM0_0 (Memref.isWhole_whole _)
    (fun h' => h0 ((hcond0_0 ⟨s, hs⟩).mp h')) ((hcond0_1 ⟨s, hs⟩).mpr h)
    (iblk m c 0 ⟨s, hs⟩) (iblk m c 1 ⟨s, hs⟩) (iblk m c 2 ⟨s, hs⟩)
    (outsAt0 m c (s - 1) (Nat.lt_of_le_of_lt (Nat.sub_le _ _) hs)).2

/-- The output tile of the last run, over the tiles of all three runs of its contraction. -/
theorem out_three_runs (c : Dev nD) (s : ℕ) (hs : s < cfg0.N) (h : s % 3 = 2)
    (hs1 : s - 1 < cfg0.N) (hs0 : s - 1 - 1 < cfg0.N) :
    (outsAt0 m c s hs).1 = k0_pay3 (iblk m c 2 ⟨s, hs⟩) (k0_pay2 (iblk m c 0 ⟨s, hs⟩) (iblk m c 1 ⟨s, hs⟩)
      (k0_pay2 (iblk m c 0 ⟨s - 1, hs1⟩) (iblk m c 1 ⟨s - 1, hs1⟩)
        (k0_pay2 (iblk m c 0 ⟨s - 1 - 1, hs0⟩) (iblk m c 1 ⟨s - 1 - 1, hs0⟩) (k0_pay1 (F := F))))) := by
  rw [out_run2 m c s hs h, acc_run1 m c (s - 1) hs1 (by omega), acc_run0 m c (s - 1 - 1) hs0 (by omega)]

end Runs

/-! ## At the ideal instance: the written-back tiles are tiles of the result, and cover it -/

variable (m : (ℓ : Loc nD τ sig) → Buf (Elt Ideal) ℓ) (ρ : Dev nD → PrngReg)

/-- The result array's contents: the product of the inputs by the weights the region finds, plus the bias row. -/
def whole (c : Dev nD) : Buf (Elt Ideal) ((c : Thread nD τ).loc main_v3) :=
  Cert.MaskedGemm.result (m ((c : Thread nD τ).loc main_arg0)) (V m c main_v2) (m ((c : Thread nD τ).loc main_arg2))

/-- Entry (p, q) of the tile the last run of a contraction leaves is entry (r, n) of the result,
    for r = 1024 (row block) + p and n = 1024 (column block) + q. -/
theorem tile_entry (c : Dev nD) (t : Fin cfg0.N) (h2 : t.val % 3 = 2) (p q : Fin 1024) (r : Fin 16384) (n : Fin 3072)
    (hr : r.val = t.val / 9 * 1024 + p.val) (hn : n.val = t.val / 3 % 3 * 1024 + q.val) :
    (outsAt0 m c t.val t.isLt).1 (ix2 p q) = whole m c (ix2 r n) := by
  have hs1 : t.val - 1 < cfg0.N := Nat.lt_of_le_of_lt (Nat.sub_le _ _) t.isLt
  have hs0 : t.val - 1 - 1 < cfg0.N := Nat.lt_of_le_of_lt (Nat.sub_le _ _) hs1
  rw [out_three_runs m c t.val t.isLt h2 hs1 hs0]
  unfold whole
  refine Tile.entry_of_tiles _ _ _ _ _ _ _ _ _ _ p q r n ?_ ?_ ?_ ?_ ?_ ?_ ?_
  · exact fun k => Tiles.lhs_tile m c ⟨t.val - 1 - 1, hs0⟩ p k r (kidx 0 k) (by show r.val = (t.val - 1 - 1) / 9 * 1024 + p.val; omega)
      (by show (kidx 0 k).val = (t.val - 1 - 1) % 3 * 1024 + k.val; rw [kidx_val]; show (0 : Fin 3).val * 1024 + k.val = _; have : ((0 : Fin 3).val) = 0 := rfl; omega)
  · exact fun k => Tiles.rhs_tile m c ⟨t.val - 1 - 1, hs0⟩ k q (kidx 0 k) n
      (by show (kidx 0 k).val = (t.val - 1 - 1) % 3 * 1024 + k.val; rw [kidx_val]; have : ((0 : Fin 3).val) = 0 := rfl; omega)
      (by show n.val = (t.val - 1 - 1) / 3 % 3 * 1024 + q.val; omega)
  · exact fun k => Tiles.lhs_tile m c ⟨t.val - 1, hs1⟩ p k r (kidx 1 k) (by show r.val = (t.val - 1) / 9 * 1024 + p.val; omega)
      (by show (kidx 1 k).val = (t.val - 1) % 3 * 1024 + k.val; rw [kidx_val]; have : ((1 : Fin 3).val) = 1 := rfl; omega)
  · exact fun k => Tiles.rhs_tile m c ⟨t.val - 1, hs1⟩ k q (kidx 1 k) n
      (by show (kidx 1 k).val = (t.val - 1) % 3 * 1024 + k.val; rw [kidx_val]; have : ((1 : Fin 3).val) = 1 := rfl; omega)
      (by show n.val = (t.val - 1) / 3 % 3 * 1024 + q.val; omega)
  · exact fun k => Tiles.lhs_tile m c ⟨t.val, t.isLt⟩ p k r (kidx 2 k) hr
      (by show (kidx 2 k).val = t.val % 3 * 1024 + k.val; rw [kidx_val]; have : ((2 : Fin 3).val) = 2 := rfl; omega)
  · exact fun k => Tiles.rhs_tile m c ⟨t.val, t.isLt⟩ k q (kidx 2 k) n
      (by show (kidx 2 k).val = t.val % 3 * 1024 + k.val; rw [kidx_val]; have : ((2 : Fin 3).val) = 2 := rfl; omega) hn
  · exact Tiles.bias_tile m c ⟨t.val, t.isLt⟩ q n hn

/-- What a writing point writes back is its block of the result. -/
theorem flushed_eq (c : Dev nD) (t : Fin cfg0.N) (hf : (cfg0.win 3).flush t = true) :
    (dats m 0 c).flushed 3 t = ((cfg0.win 3).blk t).view.read (Elt Ideal) (whole m c) := by
  have h2 : t.val % 3 = 2 := (flush0_3 t).mp hf
  have hN : t.val < 144 := lt_of_lt_of_eq t.isLt N_0
  obtain ⟨-, -, -, -, -, e5, e6⟩ := Tiles.block_indices t
  rw [Value.flushed3]
  funext y
  have hy0 : (y 0).val < 1024 := (y 0).isLt
  have hy1 : (y 1).val < 1024 := (y 1).isLt
  rw [View.read_apply]
  have hL : (cfg0.win 3).cut (grid0.coords t) ((outsAt0 m c t.val t.isLt).1) y
      = (outsAt0 m c t.val t.isLt).1 (ix2 (⟨(y 0).val, hy0⟩ : Fin 1024) (⟨(y 1).val, hy1⟩ : Fin 1024)) :=
    congrArg (outsAt0 m c t.val t.isLt).1 (funext fun a => Fin.ext (by
      match a with
      | ⟨0, _⟩ => rfl
      | ⟨1, _⟩ => rfl))
  have hR : ((cfg0.win 3).blk t).view.emb y
      = ix2 (⟨t.val / 9 * 1024 + (y 0).val, by omega⟩ : Fin 16384) (⟨t.val / 3 % 3 * 1024 + (y 1).val, by omega⟩ : Fin 3072) :=
    funext fun a => Fin.ext (by
      match a with
      | ⟨0, _⟩ => show win0_3.index t (0 : Fin 2) * 1024 + 1 * (y 0).val = t.val / 9 * 1024 + (y 0).val; rw [e5]; omega
      | ⟨1, _⟩ => show win0_3.index t (1 : Fin 2) * 1024 + 1 * (y 1).val = t.val / 3 % 3 * 1024 + (y 1).val; rw [e6]; omega)
  rw [hL, hR]
  exact tile_entry m c t h2 _ _ _ _ rfl rfl

/-- An index of the array is in point t's block iff each coordinate is in the block's range on its axis. -/
theorem mem_block (t : Fin cfg0.N) (i : S16384x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every entry of the array lies in the block of the last run of its tile's contraction, which is written back. -/
theorem covered (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 144 := N_0
  let t : Fin cfg0.N := ⟨(i 0).val / 1024 * 9 + (i 1).val / 1024 * 3 + 2, by rw [hN]; omega⟩
  have ht : t.val = (i 0).val / 1024 * 9 + (i 1).val / 1024 * 3 + 2 := rfl
  obtain ⟨-, -, -, -, -, e5, e6⟩ := Tiles.block_indices t
  refine ⟨t, (flush0_3 t).mpr (by rw [ht]; omega), ?_⟩
  rw [mem_block]
  intro a
  match a with
  | ⟨0, _⟩ => show win0_3.index t (0 : Fin 2) * 1024 ≤ (i 0).val ∧ (i 0).val < win0_3.index t (0 : Fin 2) * 1024 + 1024; rw [e5, ht]; omega
  | ⟨1, _⟩ => show win0_3.index t (1 : Fin 2) * 1024 ≤ (i 1).val ∧ (i 1).val < win0_3.index t (1 : Fin 2) * 1024 + 1024; rw [e6, ht]; omega

/-- The array after the run is the result. -/
theorem final (c : Dev nD) : (dats m 0 c).arrAt 3 cfg0.N = whole m c :=
  (dats m 0 c).arrAt_eq_of_cover 3 (whole m c) (flushed_eq m c) covered

/-- The result over the arguments alone: the weights the region finds are the host's masked weights. -/
theorem whole_eq (c : Dev nD) : whole m c
    = Cert.MaskedGemm.result (m ((c : Thread nD τ).loc main_arg0))
        (mulf (F := Ideal) (m ((c : Thread nD τ).loc main_arg1))
          (sitofp (F := Ideal) .f32 (transpose S3072x3072 [1, 0] (m ((c : Thread nD τ).loc main_arg3)) transposes_S3072x3072_S3072x3072_1_0)))
        (m ((c : Thread nD τ).loc main_arg2)) := by
  unfold whole
  rw [Tiles.weights_eq]

/-- The run, read: the result array at the result, the arguments unchanged. -/
theorem run : θ_run defs (onTc (τ := τ) (main (F := Ideal))) ⟨m, fun _ => 0, ρ⟩ fun r => ∀ c : Dev nD,
      r.2.mem ((c : Thread nD τ).loc main_v3) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Whole

end
-- ==== Proof.RefValue.lean ====
/-
  The reference's result as the same function of the argument arrays: its one matrix product over
  the whole contracted axis, of the inputs by the masked weights, plus the bias row repeated over the
  rows.  Entry (r, n) of the product is ∑ k < 3072, inputs[r, k] * W[k, n]; the two broadcasts of
  the bias read entry n of the row at every (r, n).
-/
import proofs.«111268_j25434796327643_1_alg».proof.Proof.Gen.ReferenceIdeal.Read
import proofs.«111268_j25434796327643_1_alg».proof.Proof.Spec

noncomputable section

open scoped BigOperators

namespace Cert.ReferenceIdeal.Whole

open Cert.ReferenceIdeal Cert.ReferenceIdeal.Gen Cert.ReferenceIdeal.Read Idealize.ShloMosaic Idealize.ShloMosaic.ValueIdx

/-- The program's last value is the product-plus-bias of the inputs, the masked weights and the bias row. -/
theorem result_eq (x0 : (⟨S16384x3072, .f32⟩ : BufTy).Contents (Elt Ideal)) (x1 : (⟨S3072x3072, .f32⟩ : BufTy).Contents (Elt Ideal))
    (x2 : (⟨S3072, .f32⟩ : BufTy).Contents (Elt Ideal)) (x3 : (⟨S3072x3072, .i32⟩ : BufTy).Contents (Elt Ideal)) :
    val_main_v6 (F := Ideal) x0 x1 x2 x3
      = Cert.MaskedGemm.result x0
          (mulf (F := Ideal) x1 (sitofp (F := Ideal) .f32 (transpose S3072x3072 [1, 0] x3 transposes_S3072x3072_S3072x3072_1_0))) x2 := by
  funext i
  obtain ⟨r, n, rfl⟩ : ∃ (r : Fin 16384) (n : Fin 3072), i = ix2 r n := ⟨i 0, i 1, eq_ix2 i⟩
  have el : ∀ k : Fin 3072, lidx_main_v3 (ix2 r n) k = ix2 r k := fun k => funext fun a => Fin.ext (by
    match a with
    | ⟨0, _⟩ => rfl
    | ⟨1, _⟩ => rfl)
  have er : ∀ k : Fin 3072, ridx_main_v3 (ix2 r n) k = ix2 k n := fun k => funext fun a => Fin.ext (by
    match a with
    | ⟨0, _⟩ => rfl
    | ⟨1, _⟩ => rfl)
  have eb : idx_main_v4 (idx_main_v5 (ix2 r n)) = ix1 n := funext fun a => Fin.ext (by
    match a with
    | ⟨0, _⟩ => rfl)
  rw [val_main_v6_apply, val_main_v3_apply, val_main_v5_apply, val_main_v4_apply]
  simp only [el, er, eb]
  rfl

end Cert.ReferenceIdeal.Whole

end
-- ==== Proof.lean ====
/-
  A masked dense layer, out = inputs . (w * maskᵀ) + b, computed by a tiled kernel against the same
  formula as one matrix product.

  Both programs first form the masked weights W = w * float(maskᵀ) with the same three host
  operations.  The reference then takes the 16384 x 3072 by 3072 x 3072 product in one piece and
  adds the bias row.  The kernel walks a 16 x 3 x 3 grid of 1024 x 1024 tiles — output row block,
  output column block, contraction run, the run fastest —, rounds the two operand tiles to bf16
  (the identity over the extended reals), multiplies them on the matrix unit and adds the product to
  a tile-sized accumulator that it zeroes at the first run; at the last run it adds the bias row's
  piece and writes the output tile.  Over the extended reals entry (r, n) of either result is
      (∑ k < 3072, inputs[r, k] * W[k, n]) + b[n]:
  the kernel's three partial sums over 1024 contraction indices each, added to zero in order, are the
  whole sum, because addition of extended reals is commutative and associative with zero neutral
  (no finiteness of the inputs is used).  The idealization rewrote nothing, so its preservation claim
  is empty; the three frames are the programs' runs with the results dropped.
-/
import proofs.«111268_j25434796327643_1_alg».proof.Defs
import proofs.«111268_j25434796327643_1_alg».proof.Proof.Gen.Kernel
import proofs.«111268_j25434796327643_1_alg».proof.Proof.Gen.Kernel.Skeleton
import proofs.«111268_j25434796327643_1_alg».proof.Proof.Gen.Kernel.Launch
import proofs.«111268_j25434796327643_1_alg».proof.Proof.Gen.Kernel.Points
import proofs.«111268_j25434796327643_1_alg».proof.Proof.Gen.Kernel.Frame
import proofs.«111268_j25434796327643_1_alg».proof.Proof.Gen.KernelIdeal
import proofs.«111268_j25434796327643_1_alg».proof.Proof.Gen.KernelIdeal.Skeleton
import proofs.«111268_j25434796327643_1_alg».proof.Proof.Gen.KernelIdeal.Launch
import proofs.«111268_j25434796327643_1_alg».proof.Proof.Gen.KernelIdeal.Points
import proofs.«111268_j25434796327643_1_alg».proof.Proof.Gen.KernelIdeal.Frame
import proofs.«111268_j25434796327643_1_alg».proof.Proof.Gen.ReferenceIdeal
import proofs.«111268_j25434796327643_1_alg».proof.Proof.Gen.Pre_finite_inputs
import proofs.«111268_j25434796327643_1_alg».proof.Proof.Gen.KernelIdeal.Value
import proofs.«111268_j25434796327643_1_alg».proof.Proof.Gen.ReferenceIdeal.Run
import proofs.«111268_j25434796327643_1_alg».proof.Proof.Gen.ReferenceIdeal.Read
import proofs.«111268_j25434796327643_1_alg».proof.Proof.KernelValue
import proofs.«111268_j25434796327643_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's both end at
    inputs . W + b of arguments that agree, W the masked weights. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Whole.result_eq,
    (hagree c).1, (hagree c).2.1, (hagree c).2.2.1, (hagree c).2.2.2]
  exact (Cert.KernelIdeal.Whole.whole_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
